-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S256 : Shape := ⟨1, ![256]⟩
abbrev S1x1x512x256 : Shape := ⟨4, ![1, 1, 512, 256]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S1x1x512x256 : S_.BroadcastsInDim S1x1x512x256 (![] : Fin 0 → Fin S1x1x512x256.rank)
  reducesTo_S1x1x512x256_S_d0_1_2_3 : S1x1x512x256.ReducesTo [0, 1, 2, 3] S_

variable [Facts]

def fn_part1 {F : FTy → Type} [FloatOps F] (main_arg4 : FVec F S1x1x512x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x1x512x256 .f32 := Host.absf main_arg4
  let main_cst_6 : FVec F S_ .f32 := constant S_ .f32 0x7F800000#32
  let main_v20 : FVec F S1x1x512x256 .f32 := broadcastInDim S1x1x512x256 ![] bcast_S_S1x1x512x256 main_cst_6
  let main_v21 : IVec S1x1x512x256 1 := cmpf .olt main_v19 main_v20
  let main_c_7 : IVec S_ 1 := constantI S_ 1 1#1
  let main_v22 : IVec S_ 1 := (fun x v => Host.reduce IntOp.andi x v reducesTo_S1x1x512x256_S_d0_1_2_3 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x128x128x256 .f32) (main_arg1 : FVec F S8x128x128x256 .f32) (main_arg2 : FVec F S256 .f32) (main_arg3 : FVec F S256 .f32) (main_arg4 : FVec F S1x1x512x256 .f32) (main_arg5 : FVec F S256 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S8x128x128x256 .f32 := Host.absf main_arg1
  let main_cst_0 : FVec F S_ .f32 := constant S_ .f32 0x7F800000#32
  let main_v5 : FVec F S8x128x128x256 .f32 := broadcastInDim S8x128x128x256 ![] bcast_S_S8x128x128x256 main_cst_0
  let main_v6 : IVec S8x128x128x256 1 := cmpf .olt main_v4 main_v5
  let main_c_1 : IVec S_ 1 := constantI S_ 1 1#1
  let main_v7 : IVec S_ 1 := (fun x v => Host.reduce IntOp.andi x v reducesTo_S8x128x128x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x128x128x256 : Shape := ⟨4, ![8, 128, 128, 256]⟩
abbrev S256 : Shape := ⟨1, ![256]⟩
abbrev S1x1x512x256 : Shape := ⟨4, ![1, 1, 512, 256]⟩
abbrev S131072x256 : Shape := ⟨2, ![131072, 256]⟩
abbrev S512x256 : Shape := ⟨2, ![512, 256]⟩
abbrev S256x256 : Shape := ⟨2, ![256, 256]⟩
abbrev S2048x256 : Shape := ⟨2, ![2048, 256]⟩
abbrev S1x256 : Shape := ⟨2, ![1, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .f32⟩
  | .hbm, ⟨2, _⟩ => ⟨S256, .f32⟩
  | .hbm, ⟨3, _⟩ => ⟨S256, .f32⟩
  | .hbm, ⟨4, _⟩ => ⟨S1x1x512x256, .f32⟩
  | .hbm, ⟨5, _⟩ => ⟨S256, .f32⟩
  | .hbm, ⟨6, _⟩ => ⟨S131072x256, .f32⟩
  | .hbm, ⟨7, _⟩ => ⟨S131072x256, .f32⟩
  | .hbm, ⟨8, _⟩ => ⟨S512x256, .f32⟩
  | .hbm, ⟨9, _⟩ => ⟨S256x256, .f32⟩
  | .hbm, ⟨10, _⟩ => ⟨S256x256, .f32⟩
  | .hbm, ⟨11, _⟩ => ⟨S131072x256, .f32⟩
  | .hbm, ⟨12, _⟩ => ⟨S8x128x128x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256, .f32⟩
  | .local _ .vmem, ⟨5, _⟩ => ⟨S256, .f32⟩
  | .local _ .vmem, ⟨6, _⟩ => ⟨S256x256, .f32⟩
  | .local _ .vmem, ⟨7, _⟩ => ⟨S256x256, .f32⟩
  | .local _ .vmem, ⟨8, _⟩ => ⟨S256, .f32⟩
  | .local _ .vmem, ⟨9, _⟩ => ⟨S2048x256, .f32⟩
  | .local _ .vmem, ⟨10, _⟩ => ⟨S2048x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x128x128x256_S131072x256 : S8x128x128x256.ShapeCasts S131072x256
  shapeCasts_S1x1x512x256_S512x256 : S1x1x512x256.ShapeCasts S512x256
  slices_S512x256_S256x256_0_0 : S512x256.Slices ![0, 0] S256x256
  slices_S512x256_S256x256_256_0 : S512x256.Slices ![256, 0] S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S131072x256_S8x128x128x256 : S131072x256.ShapeCasts S8x128x128x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S131072x256.size a
  hwx0_7 : ∀ i : grid0.Coords, EltTy.bits .f32 = 32 ∨ (Rect.block (s := S131072x256) S2048x256.size (cc0_transform_7 i) (hinb0_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S256 : Shape := ⟨1, ![256]⟩
abbrev S1x1x512x256 : Shape := ⟨4, ![1, 1, 512, 256]⟩
abbrev S1x1x1x256 : Shape := ⟨4, ![1, 1, 1, 256]⟩
abbrev S8x128x128x512 : Shape := ⟨4, ![8, 128, 128, 512]⟩
abbrev S512x256 : Shape := ⟨2, ![512, 256]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .f32⟩
  | .hbm, ⟨2, _⟩ => ⟨S256, .f32⟩
  | .hbm, ⟨3, _⟩ => ⟨S256, .f32⟩
  | .hbm, ⟨4, _⟩ => ⟨S1x1x512x256, .f32⟩
  | .hbm, ⟨5, _⟩ => ⟨S256, .f32⟩
  | .hbm, ⟨6, _⟩ => ⟨S1x1x1x256, .f32⟩
  | .hbm, ⟨7, _⟩ => ⟨S8x128x128x256, .f32⟩
  | .hbm, ⟨8, _⟩ => ⟨S8x128x128x256, .f32⟩
  | .hbm, ⟨9, _⟩ => ⟨S1x1x1x256, .f32⟩
  | .hbm, ⟨10, _⟩ => ⟨S8x128x128x256, .f32⟩
  | .hbm, ⟨11, _⟩ => ⟨S8x128x128x256, .f32⟩
  | .hbm, ⟨12, _⟩ => ⟨S8x128x128x512, .f32⟩
  | .hbm, ⟨13, _⟩ => ⟨S512x256, .f32⟩
  | .hbm, ⟨14, _⟩ => ⟨S8x128x128x256, .f32⟩
  | .hbm, ⟨15, _⟩ => ⟨S1x1x1x256, .f32⟩
  | .hbm, ⟨16, _⟩ => ⟨S8x128x128x256, .f32⟩
  | .hbm, ⟨17, _⟩ => ⟨S8x128x128x256, .f32⟩
  | .hbm, ⟨18, _⟩ => ⟨S_, .f32⟩
  | .hbm, ⟨19, _⟩ => ⟨S8x128x128x256, .f32⟩
  | .hbm, ⟨20, _⟩ => ⟨S8x128x128x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S8x128x128x256_0_1_2_3 : S1x1x1x256.BroadcastsInDim S8x128x128x256 (![0, 1, 2, 3] : Fin 4 → Fin S8x128x128x256.rank)
  concatenates_S8x128x128x256_S8x128x128x256_S8x128x128x512_d3 : Shape.Concatenates [S8x128x128x256, S8x128x128x256] S8x128x128x512 3
  shapeCasts_S1x1x512x256_S512x256 : S1x1x512x256.ShapeCasts S512x256
  bcast_S_S8x128x128x256 : S_.BroadcastsInDim S8x128x128x256 (![] : Fin 0 → Fin S8x128x128x256.rank)
  dot_S8x128x128x512_S512x256_S8x128x128x256_3_0_012_1_n_n_wf : DotDims.WF S8x128x128x512 S512x256 S8x128x128x256 [3] [0] [0, 1, 2] [1] [] []

variable [Facts₀]

def dot_S8x128x128x512_S512x256_S8x128x128x256_3_0_012_1_n_n : DotDims S8x128x128x512 S512x256 S8x128x128x256 where
  lhsContracting := [3]
  rhsContracting := [0]
  lhsNonContracting := [0, 1, 2]
  rhsNonContracting := [1]
  lhsBatch := []
  rhsBatch := []
  wf := dot_S8x128x128x512_S512x256_S8x128x128x256_3_0_012_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Spec.lean ====
/-
  The function both programs compute.

  Two activations X0 and X1, each of M rows and 256 channels, are shifted by their own bias rows b0 and b1 and
  multiplied by two 256 × 256 weight matrices W0 and W1; the two products and a third bias row cb are added, and
  the sum is clipped below at zero:

      out (p, q) = max ( Σ_κ (X0 (p, κ) + b0 κ) · W0 (κ, q) + Σ_κ (X1 (p, κ) + b1 κ) · W1 (κ, q) + cb q , 0 ).

  `rowsOut` is this on a matrix of rows. `out4` is the same on an 8 × 128 × 128 image of 256 channels whose two
  weight matrices are the top half (rows 0 … 255) and the bottom half (rows 256 … 511) of one 1 × 1 × 512 × 256
  convolution kernel. A one-pass form contracts all 512 channels of the concatenated activations in a single sum;
  `sum_halves` says that sum is the two half sums added, which holds in every additive commutative monoid — on the
  extended reals too, with no finiteness assumption.
-/
import Idealize.ShloMosaic.PureOps.Ideal
import Idealize.ShloMosaic.Lib.ValueIdx

noncomputable section

open scoped BigOperators

namespace Cert.BiasedPair

open Idealize.ShloMosaic Idealize.ShloMosaic.ValueIdx

/-- One entry of the result in rows form: row `p`, channel `q`. -/
def rowEntry {M : Nat} (X0 X1 : (⟨2, ![M, 256]⟩ : Shape).Idx → EReal) (b0 b1 cb : (⟨1, ![256]⟩ : Shape).Idx → EReal)
    (W0 W1 : (⟨2, ![256, 256]⟩ : Shape).Idx → EReal) (p : Fin M) (q : Fin 256) : EReal :=
  max ((∑ κ : Fin 256, (X0 (ix2 p κ) + b0 (ix1 κ)) * W0 (ix2 κ q))
        + (∑ κ : Fin 256, (X1 (ix2 p κ) + b1 (ix1 κ)) * W1 (ix2 κ q)) + cb (ix1 q)) 0

/-- The result in rows form, as one function of the operands. -/
def rowsOut {M : Nat} (X0 X1 : (⟨2, ![M, 256]⟩ : Shape).Idx → EReal) (b0 b1 cb : (⟨1, ![256]⟩ : Shape).Idx → EReal)
    (W0 W1 : (⟨2, ![256, 256]⟩ : Shape).Idx → EReal) : (⟨2, ![M, 256]⟩ : Shape).Idx → EReal :=
  fun j => rowEntry X0 X1 b0 b1 cb W0 W1 (j 0) (j 1)

theorem rowsOut_apply {M : Nat} (X0 X1 : (⟨2, ![M, 256]⟩ : Shape).Idx → EReal) (b0 b1 cb : (⟨1, ![256]⟩ : Shape).Idx → EReal)
    (W0 W1 : (⟨2, ![256, 256]⟩ : Shape).Idx → EReal) (p : Fin M) (q : Fin 256) :
    rowsOut X0 X1 b0 b1 cb W0 W1 (ix2 p q) = rowEntry X0 X1 b0 b1 cb W0 W1 p q := rfl

/-- Row κ of the top half of the 512-row weight matrix. -/
abbrev top (κ : Fin 256) : Fin 512 := ⟨κ.val, by have := κ.isLt; omega⟩
/-- Row κ of the bottom half. -/
abbrev bot (κ : Fin 256) : Fin 512 := ⟨256 + κ.val, by have := κ.isLt; omega⟩

/-- One entry of the result on the image: pixel (a, b, c), channel `q`. -/
def entry4 (x0 x1 : (⟨4, ![8, 128, 128, 256]⟩ : Shape).Idx → EReal) (b0 b1 cb : (⟨1, ![256]⟩ : Shape).Idx → EReal)
    (w : (⟨4, ![1, 1, 512, 256]⟩ : Shape).Idx → EReal) (a : Fin 8) (b c : Fin 128) (q : Fin 256) : EReal :=
  max ((∑ κ : Fin 256, (x0 (ix4 a b c κ) + b0 (ix1 κ)) * w (ix4 (0 : Fin 1) (0 : Fin 1) (top κ) q))
        + (∑ κ : Fin 256, (x1 (ix4 a b c κ) + b1 (ix1 κ)) * w (ix4 (0 : Fin 1) (0 : Fin 1) (bot κ) q)) + cb (ix1 q)) 0

/-- The result on the image, as one function of the six arguments. -/
def out4 (x0 x1 : (⟨4, ![8, 128, 128, 256]⟩ : Shape).Idx → EReal) (b0 b1 cb : (⟨1, ![256]⟩ : Shape).Idx → EReal)
    (w : (⟨4, ![1, 1, 512, 256]⟩ : Shape).Idx → EReal) : (⟨4, ![8, 128, 128, 256]⟩ : Shape).Idx → EReal :=
  fun i => entry4 x0 x1 b0 b1 cb w (i 0) (i 1) (i 2) (i 3)

theorem out4_apply (x0 x1 : (⟨4, ![8, 128, 128, 256]⟩ : Shape).Idx → EReal) (b0 b1 cb : (⟨1, ![256]⟩ : Shape).Idx → EReal)
    (w : (⟨4, ![1, 1, 512, 256]⟩ : Shape).Idx → EReal) (a : Fin 8) (b c : Fin 128) (q : Fin 256) :
    out4 x0 x1 b0 b1 cb w (ix4 a b c q) = entry4 x0 x1 b0 b1 cb w a b c q := rfl

/-- A sum over 512 indices is the sum over the first 256 plus the sum over the last 256. -/
theorem sum_halves {A : Type*} [AddCommMonoid A] (f : Fin 512 → A) :
    ∑ k : Fin 512, f k = (∑ κ : Fin 256, f (top κ)) + ∑ κ : Fin 256, f (bot κ) :=
  Fin.sum_univ_add (a := 256) (b := 256) f

end Cert.BiasedPair

end
-- ==== Proof.Payload.lean ====
/-
  What the kernel body stores.

  At one grid point the body loads a 2048-row block of each activation, the three bias rows and the two 256 × 256
  weight matrices, and stores ONE value: max (A0 · W0 + A1 · W1 + cb, 0), where A0 = X0 + b0 and A1 = X1 + b1 with the
  bias rows repeated down the rows. Read on the extended reals the narrowings to half precision are the identity
  and a matrix product into a zero accumulator is the plain sum of products over the contracted channel, so the
  stored value is the rows form of the result on the loaded blocks, entry by entry.
-/
import proofs.«146284_j4561255268895_1_alg».proof.Proof.Gen.KernelIdeal.Skeleton
import proofs.«146284_j4561255268895_1_alg».proof.Proof.LibPlainDot
import proofs.«146284_j4561255268895_1_alg».proof.Proof.Spec
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.BiasedPair

/-- The body's two matrix products contract the left operand's channel axis with the right operand's row axis and
    have no batch axes. -/
theorem dims_plain : PlainDot.IsPlain (M := 2048) (K := 256) (N := 256) dot_S2048x256_S256x256_S2048x256_1_0_0_1_n_n :=
  ⟨rfl, rfl, rfl, rfl, rfl, rfl⟩

/-- A bias row viewed as a 1 × 256 matrix and repeated down 2048 rows reads, at (p, q), the row's entry q. -/
theorem bias_rows (v : S256.Idx → EReal) (h1 : S256.ShapeCasts S1x256) (h2 : S1x256.Broadcasts S2048x256)
    (p : Fin 2048) (q : Fin 256) : broadcastTo S2048x256 (shapeCast S1x256 v h1) h2 (ix2 p q) = v (ix1 q) := by
  refine (broadcastTo_apply _ h2 (ix2 p q) (ix2 (0 : Fin 1) q) fun a => ?_).trans ?_
  · match a with
    | ⟨0, _⟩ => show 0 = if (1 : Nat) = 1 then 0 else p.val; rw [if_pos rfl]
    | ⟨1, _⟩ => show q.val = if (256 : Nat) = 1 then 0 else q.val; rw [if_neg (by decide)]
  · refine shapeCast_apply v h1 (ix2 (0 : Fin 1) q) (ix1 q) ?_
    rewrite [Shape.rowMajor_val_one, Shape.rowMajor_val_two]
    show q.val = 0 * 256 + q.val
    omega

/-- The stored value is the rows form of the result on the loaded blocks. -/
theorem payload_eq (v0 v2 : Vec Ideal S2048x256 .f32) (v4 v9 : Vec Ideal S256 .f32) (v14 v17 : Vec Ideal S256x256 .f32)
    (v23 : Vec Ideal S256 .f32) :
    k0_pay1 (F := Ideal) v0 v2 v4 v9 v14 v17 v23 = rowsOut (M := 2048) v0 v2 v4 v9 v23 v14 v17 := by
  funext j
  obtain ⟨p, q, rfl⟩ : ∃ (p : Fin 2048) (q : Fin 256), j = ix2 p q := ⟨j 0, j 1, eq_ix2 j⟩
  rw [rowsOut_apply]
  unfold k0_pay1 rowEntry
  simp only [maximumf_apply, addf_apply, matmul, PlainDot.matmul_zero_plain _ dims_plain, truncf_apply, shapeCast_self,
    bias_rows, broadcast_apply, Scalar.ofBits, Ideal.ofBits_def, Ideal.ofBits_zero_f32]

end Cert.KernelIdeal.Body

end
-- ==== Proof.Blocks.lean ====
/-
  From blocks to the output array.

  The grid has 64 points. At point t the two activation windows and the output window sit on rows 2048 t … 2048 t + 2047
  of their arrays, all 256 channels; the three bias rows and the two weight matrices are staged whole at every point.
  So what point t writes back is block t of ONE function of the arrays as the region finds them — the rows form of the
  result on 131072 rows — and since the 64 blocks tile the rows, the output array ends holding that function.
-/
import proofs.«146284_j4561255268895_1_alg».proof.Proof.Gen.KernelIdeal.Frame
import proofs.«146284_j4561255268895_1_alg».proof.Proof.Payload
import Idealize.ShloMosaic.Lib.Pipeline.Value

set_option maxRecDepth 16384

noncomputable section

open scoped BigOperators

namespace Cert.KernelIdeal.Body

open Idealize.ShloMosaic Idealize.ShloMosaic.TcCoe Idealize.ShloMosaic.ValueIdx Idealize.SL.Sem
open Idealize.ShloMosaic.Pipeline (Dat)
open Cert.KernelIdeal Cert.KernelIdeal.Gen Cert.BiasedPair

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The row windows (both activations and the output) sit at block row t, block column 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

/-- The bias rows and the weight matrices are staged whole: block index 0 on every axis, at every point. -/
theorem idx_whole : ∀ t : Fin cfg0.N, win0_2.index t (0 : Fin 1) = 0 ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0 ∧ win0_6.index t (0 : Fin 1) = 0 :=
  (by decide +kernel : ∀ t : Fin grid0.N, _)

/-- The output array after the region: the rows form of the result on the arrays as the region finds them. -/
abbrev outArr (c : Dev nD) : S131072x256.Idx → EReal :=
  rowsOut (M := 131072) (V m c main_v0) (V m c main_v1) (V m c main_arg2) (V m c main_arg3) (V m c main_arg5) (V m c main_v3) (V m c main_v4)

/-- A whole-array window's block is the array. -/
theorem blk2_eq (c : Dev nD) (t : Fin cfg0.N) : (iblk m c 2 t : S256.Idx → EReal) = (V m c main_arg2 : S256.Idx → EReal) := by
  obtain ⟨e2, e3, e4a, e4b, e5a, e5b, e6⟩ := idx_whole t
  funext x
  unfold iblk
  rw [View.read_apply]
  show V m c main_arg2 _ = V m c main_arg2 x
  congr 1
  funext a; apply Fin.ext
  match a with
  | ⟨0, _⟩ => show win0_2.index t (0 : Fin 1) * 256 + 1 * (x 0).val = (x 0).val; rw [e2]; omega

theorem blk3_eq (c : Dev nD) (t : Fin cfg0.N) : (iblk m c 3 t : S256.Idx → EReal) = (V m c main_arg3 : S256.Idx → EReal) := by
  obtain ⟨e2, e3, e4a, e4b, e5a, e5b, e6⟩ := idx_whole t
  funext x
  unfold iblk
  rw [View.read_apply]
  show V m c main_arg3 _ = V m c main_arg3 x
  congr 1
  funext a; apply Fin.ext
  match a with
  | ⟨0, _⟩ => show win0_3.index t (0 : Fin 1) * 256 + 1 * (x 0).val = (x 0).val; rw [e3]; omega

theorem blk6_eq (c : Dev nD) (t : Fin cfg0.N) : (iblk m c 6 t : S256.Idx → EReal) = (V m c main_arg5 : S256.Idx → EReal) := by
  obtain ⟨e2, e3, e4a, e4b, e5a, e5b, e6⟩ := idx_whole t
  funext x
  unfold iblk
  rw [View.read_apply]
  show V m c main_arg5 _ = V m c main_arg5 x
  congr 1
  funext a; apply Fin.ext
  match a with
  | ⟨0, _⟩ => show win0_6.index t (0 : Fin 1) * 256 + 1 * (x 0).val = (x 0).val; rw [e6]; omega

theorem blk4_eq (c : Dev nD) (t : Fin cfg0.N) : (iblk m c 4 t : S256x256.Idx → EReal) = (V m c main_v3 : S256x256.Idx → EReal) := by
  obtain ⟨e2, e3, e4a, e4b, e5a, e5b, e6⟩ := idx_whole t
  funext x
  unfold iblk
  rw [View.read_apply]
  show V m c main_v3 _ = V m c main_v3 x
  congr 1
  funext a; apply Fin.ext
  match a with
  | ⟨0, _⟩ => show win0_4.index t (0 : Fin 2) * 256 + 1 * (x 0).val = (x 0).val; rw [e4a]; omega
  | ⟨1, _⟩ => show win0_4.index t (1 : Fin 2) * 256 + 1 * (x 1).val = (x 1).val; rw [e4b]; omega

theorem blk5_eq (c : Dev nD) (t : Fin cfg0.N) : (iblk m c 5 t : S256x256.Idx → EReal) = (V m c main_v4 : S256x256.Idx → EReal) := by
  obtain ⟨e2, e3, e4a, e4b, e5a, e5b, e6⟩ := idx_whole t
  funext x
  unfold iblk
  rw [View.read_apply]
  show V m c main_v4 _ = V m c main_v4 x
  congr 1
  funext a; apply Fin.ext
  match a with
  | ⟨0, _⟩ => show win0_5.index t (0 : Fin 2) * 256 + 1 * (x 0).val = (x 0).val; rw [e5a]; omega
  | ⟨1, _⟩ => show win0_5.index t (1 : Fin 2) * 256 + 1 * (x 1).val = (x 1).val; rw [e5b]; omega

/-- Two entries of the rows form agree when the two activations agree along the row and everything else is shared. -/
theorem rowEntry_congr {M N : Nat} (B0 B1 : (⟨2, ![M, 256]⟩ : Shape).Idx → EReal) (A0 A1 : (⟨2, ![N, 256]⟩ : Shape).Idx → EReal)
    (r0 r1 r2 : (⟨1, ![256]⟩ : Shape).Idx → EReal) (U0 U1 : (⟨2, ![256, 256]⟩ : Shape).Idx → EReal)
    (p : Fin M) (P : Fin N) (q Q : Fin 256) (hq : q = Q)
    (h0 : ∀ κ, B0 (ix2 p κ) = A0 (ix2 P κ)) (h1 : ∀ κ, B1 (ix2 p κ) = A1 (ix2 P κ)) :
    rowEntry B0 B1 r0 r1 r2 U0 U1 p q = rowEntry A0 A1 r0 r1 r2 U0 U1 P Q := by
  subst hq
  unfold rowEntry
  simp only [h0, h1]

/-- WHAT POINT t WRITES BACK is block t of the rows form on the region-entry arrays. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7]
  unfold out0_7
  rw [View.canon_unit_zero hz2]
  simp only [View.ld_unit_zero (S := S2048x256) hz2, View.ld_unit_zero (S := S256) hz1, View.ld_unit_zero (S := S256x256) hz2]
  rw [payload_eq, blk2_eq, blk3_eq, blk4_eq, blk5_eq, blk6_eq]
  obtain ⟨i0a, i0b, i1a, i1b, i7a, i7b⟩ := idx_rows t
  funext y
  have hy0 : (y 0).val < 2048 := (y 0).isLt
  have hy1 : (y 1).val < 256 := (y 1).isLt
  show rowEntry (M := 2048) (iblk m c 0 t) (iblk m c 1 t) (V m c main_arg2) (V m c main_arg3) (V m c main_arg5) (V m c main_v3) (V m c main_v4) (y 0) (y 1)
      = rowEntry (M := 131072) (V m c main_v0) (V m c main_v1) (V m c main_arg2) (V m c main_arg3) (V m c main_arg5) (V m c main_v3) (V m c main_v4)
          ((((cfg0.win 7).blk t).view.emb y) 0) ((((cfg0.win 7).blk t).view.emb y) 1)
  refine rowEntry_congr _ _ _ _ _ _ _ _ _ _ _ _ _ ?_ (fun κ => ?_) (fun κ => ?_)
  · apply Fin.ext
    show (y 1).val = win0_7.index t (1 : Fin 2) * 256 + 1 * (y 1).val
    rw [i7b]; omega
  · unfold iblk
    rw [View.read_apply]
    show V m c main_v0 _ = V m c main_v0 _
    congr 1
    funext a; apply Fin.ext
    match a with
    | ⟨0, _⟩ => show win0_0.index t (0 : Fin 2) * 2048 + 1 * (y 0).val = win0_7.index t (0 : Fin 2) * 2048 + 1 * (y 0).val; rw [i0a, i7a]
    | ⟨1, _⟩ => show win0_0.index t (1 : Fin 2) * 256 + 1 * κ.val = κ.val; rw [i0b]; omega
  · unfold iblk
    rw [View.read_apply]
    show V m c main_v1 _ = V m c main_v1 _
    congr 1
    funext a; apply Fin.ext
    match a with
    | ⟨0, _⟩ => show win0_1.index t (0 : Fin 2) * 2048 + 1 * (y 0).val = win0_7.index t (0 : Fin 2) * 2048 + 1 * (y 0).val; rw [i1a, i7a]
    | ⟨1, _⟩ => show win0_1.index t (1 : Fin 2) * 256 + 1 * κ.val = κ.val; rw [i1b]; omega

/-- An index of the output array is in point t's block iff each coordinate is in the block's range on its axis. -/
theorem mem_blk (t : Fin cfg0.N) (i : S131072x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v5).slice (win0_7.rect t)).set ↔ _
  rw [View.set_slice_whole, Rect.mem_set_unit]
  exact Iff.rfl

/-- Every row is in some point's block: row r is in the block of point r / 2048. -/
theorem covered (i : S131072x256.Idx) : ∃ t : Fin cfg0.N, (cfg0.win 7).flush t = true ∧ i ∈ ((cfg0.win 7).blk t).view.set := by
  have hi0 : (i 0).val < 131072 := (i 0).isLt
  have hi1 : (i 1).val < 256 := (i 1).isLt
  have hN : cfg0.N = 64 := N_0
  have ht : (i 0).val / 2048 < cfg0.N := by rw [hN]; omega
  obtain ⟨-, -, -, -, e0, e1⟩ := idx_rows ⟨(i 0).val / 2048, ht⟩
  refine ⟨⟨(i 0).val / 2048, ht⟩, flush0_7 _, ?_⟩
  rw [mem_blk]
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_7.index ⟨(i 0).val / 2048, ht⟩ (1 : Fin 2) * 256 ≤ (i 1).val ∧ (i 1).val < win0_7.index ⟨(i 0).val / 2048, ht⟩ (1 : Fin 2) * 256 + 256
    rw [e1]
    omega

/-- THE OUTPUT ARRAY after the region is the rows form of the result on the region-entry arrays. -/
theorem final_out (c : Dev nD) : (dats m 0 c).arrAt 7 cfg0.N = outArr m c :=
  (dats m 0 c).arrAt_eq_of_cover 7 (outArr m c) (fun t _ => flushed_eq m c t) covered

end Cert.KernelIdeal.Body

end
-- ==== Proof.Reshape.lean ====
/-
  From rows to the image.

  The 8 × 128 × 128 × 256 image flattened row-major is a matrix of 131072 rows and 256 channels: pixel (a, b, c) is
  row (a · 128 + b) · 128 + c, and the channel is kept. The 1 × 1 × 512 × 256 convolution kernel flattened is the
  512 × 256 weight matrix, its row κ the kernel's (0, 0, κ, ·); rows 0 … 255 are its top half and rows 256 … 511 its
  bottom half. So the rows form of the result, computed on the flattened activations with the two halves as its two
  weight matrices and un-flattened again, is the image form, entry by entry.
-/
import proofs.«146284_j4561255268895_1_alg».proof.Proof.Spec
import Idealize.ShloMosaic.Lib.Pipeline.Value

noncomputable section

open scoped BigOperators

namespace Cert.BiasedPair

open Idealize.ShloMosaic Idealize.ShloMosaic.ValueIdx

abbrev Img : Shape := ⟨4, ![8, 128, 128, 256]⟩
abbrev Flat : Shape := ⟨2, ![131072, 256]⟩
abbrev Ker : Shape := ⟨4, ![1, 1, 512, 256]⟩
abbrev Wmat : Shape := ⟨2, ![512, 256]⟩
abbrev Half : Shape := ⟨2, ![256, 256]⟩

/-- The flattened row of pixel (a, b, c). -/
abbrev rowOf (a : Fin 8) (b c : Fin 128) : Fin 131072 :=
  ⟨(a.val * 128 + b.val) * 128 + c.val, by have := a.isLt; have := b.isLt; have := c.isLt; omega⟩

/-- The flattened activations at (row of (a, b, c), κ) are the image at (a, b, c, κ). -/
theorem flat_apply (x : Img.Idx → EReal) (h : Img.ShapeCasts Flat) (a : Fin 8) (b c : Fin 128) (κ : Fin 256) :
    shapeCast Flat x h (ix2 (rowOf a b c) κ) = x (ix4 a b c κ) := by
  refine shapeCast_apply x h (ix2 (rowOf a b c) κ) (ix4 a b c κ) ?_
  rewrite [Shape.rowMajor_val_four, Shape.rowMajor_val_two]
  show ((a.val * 128 + b.val) * 128 + c.val) * 256 + κ.val = ((a.val * 128 + b.val) * 128 + c.val) * 256 + κ.val
  rfl

/-- The flattened kernel at (k, q) is the kernel at (0, 0, k, q). -/
theorem wmat_apply (w : Ker.Idx → EReal) (h : Ker.ShapeCasts Wmat) (k : Fin 512) (q : Fin 256) :
    shapeCast Wmat w h (ix2 k q) = w (ix4 (0 : Fin 1) (0 : Fin 1) k q) := by
  refine shapeCast_apply w h (ix2 k q) (ix4 (0 : Fin 1) (0 : Fin 1) k q) ?_
  rewrite [Shape.rowMajor_val_four, Shape.rowMajor_val_two]
  show ((0 * 1 + 0) * 512 + k.val) * 256 + q.val = k.val * 256 + q.val
  omega

/-- The top half of the weight matrix at (κ, q) is the matrix at (κ, q). -/
theorem top_apply (W : Wmat.Idx → EReal) (h : Wmat.Slices ![0, 0] Half) (κ q : Fin 256) :
    extractStridedSlice Half ![0, 0] W h (ix2 κ q) = W (ix2 (top κ) q) := by
  refine extractStridedSlice_apply _ W h (ix2 κ q) (ix2 (top κ) q) fun a => ?_
  match a with
  | ⟨0, _⟩ => show κ.val = 0 + κ.val; omega
  | ⟨1, _⟩ => show q.val = 0 + q.val; omega

/-- The bottom half at (κ, q) is the matrix at (256 + κ, q). -/
theorem bot_apply (W : Wmat.Idx → EReal) (h : Wmat.Slices ![256, 0] Half) (κ q : Fin 256) :
    extractStridedSlice Half ![256, 0] W h (ix2 κ q) = W (ix2 (bot κ) q) := by
  refine extractStridedSlice_apply _ W h (ix2 κ q) (ix2 (bot κ) q) fun a => ?_
  match a with
  | ⟨0, _⟩ => show 256 + κ.val = 256 + κ.val; rfl
  | ⟨1, _⟩ => show q.val = 0 + q.val; omega

/-- The rows form on the flattened activations and the two halves of the flattened kernel, un-flattened, is the
    image form. -/
theorem rows_to_image (x0 x1 : Img.Idx → EReal) (b0 b1 cb : (⟨1, ![256]⟩ : Shape).Idx → EReal) (w : Ker.Idx → EReal)
    (hx : Img.ShapeCasts Flat) (hw : Ker.ShapeCasts Wmat) (h0 : Wmat.Slices ![0, 0] Half) (h1 : Wmat.Slices ![256, 0] Half)
    (ho : Flat.ShapeCasts Img) :
    shapeCast Img (rowsOut (shapeCast Flat x0 hx) (shapeCast Flat x1 hx) b0 b1 cb
        (extractStridedSlice Half ![0, 0] (shapeCast Wmat w hw) h0) (extractStridedSlice Half ![256, 0] (shapeCast Wmat w hw) h1)) ho
      = out4 x0 x1 b0 b1 cb w := by
  funext i
  obtain ⟨a, b, c, q, rfl⟩ : ∃ (a : Fin 8) (b c : Fin 128) (q : Fin 256), i = ix4 a b c q := ⟨i 0, i 1, i 2, i 3, eq_ix4 i⟩
  refine (shapeCast_apply _ ho (ix4 a b c q) (ix2 (rowOf a b c) q) ?_).trans ?_
  · rewrite [Shape.rowMajor_val_four, Shape.rowMajor_val_two]
    show ((a.val * 128 + b.val) * 128 + c.val) * 256 + q.val = ((a.val * 128 + b.val) * 128 + c.val) * 256 + q.val
    rfl
  rw [rowsOut_apply, out4_apply]
  unfold rowEntry entry4
  simp only [flat_apply, top_apply, bot_apply, wmat_apply]

end Cert.BiasedPair

end
-- ==== Proof.KernelRun.lean ====
/-
  The kernel's run, read.

  Before the region the host flattens each activation to 131072 rows, flattens the convolution kernel to the 512 × 256
  weight matrix and cuts it into its top and bottom halves; the bias rows go in as they are. After the region the host
  un-flattens the region's output array to the image. With the output array at the rows form of the result on those
  region-entry arrays, the program's result is the image form `out4` of its six arguments, and the arguments end as
  they began.
-/
import proofs.«146284_j4561255268895_1_alg».proof.Proof.Blocks
import proofs.«146284_j4561255268895_1_alg».proof.Proof.Reshape
import Idealize.ShloMosaic.Lib.StableHlo.Run

set_option maxRecDepth 16384

noncomputable section

open scoped BigOperators

namespace Cert.KernelIdeal.Body

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.BiasedPair

variable (m : (ℓ : Loc nD τ sig) → Buf (Elt Ideal) ℓ) (ρ : Dev nD → PrngReg)

/-- The region finds the first activation flattened. -/
theorem V_v0 (c : Dev nD) : (V m c main_v0 : S131072x256.Idx → EReal)
    = shapeCast S131072x256 (m ((c : Thread nD τ).loc main_arg0)) shapeCasts_S8x128x128x256_S131072x256 := by
  show StableHlo.after hostOps0 (fun b => m (c, b)) (Proc.devRef .tc main_v0) = _
  after_results
  rfl

/-- And the second. -/
theorem V_v1 (c : Dev nD) : (V m c main_v1 : S131072x256.Idx → EReal)
    = shapeCast S131072x256 (m ((c : Thread nD τ).loc main_arg1)) shapeCasts_S8x128x128x256_S131072x256 := by
  show StableHlo.after hostOps0 (fun b => m (c, b)) (Proc.devRef .tc main_v1) = _
  after_results
  rfl

/-- The first weight matrix is the top half of the flattened convolution kernel. -/
theorem V_v3 (c : Dev nD) : (V m c main_v3 : S256x256.Idx → EReal)
    = extractStridedSlice S256x256 ![0, 0] (shapeCast S512x256 (m ((c : Thread nD τ).loc main_arg4)) shapeCasts_S1x1x512x256_S512x256)
        slices_S512x256_S256x256_0_0 := by
  show StableHlo.after hostOps0 (fun b => m (c, b)) (Proc.devRef .tc main_v3) = _
  after_results
  rfl

/-- The second its bottom half. -/
theorem V_v4 (c : Dev nD) : (V m c main_v4 : S256x256.Idx → EReal)
    = extractStridedSlice S256x256 ![256, 0] (shapeCast S512x256 (m ((c : Thread nD τ).loc main_arg4)) shapeCasts_S1x1x512x256_S512x256)
        slices_S512x256_S256x256_256_0 := by
  show StableHlo.after hostOps0 (fun b => m (c, b)) (Proc.devRef .tc main_v4) = _
  after_results
  rfl

/-- The un-flattened rows form on the region-entry arrays is the image form of the six arguments. -/
theorem out_value (c : Dev nD) :
    shapeCast S8x128x128x256 (outArr m c) shapeCasts_S131072x256_S8x128x128x256
      = out4 (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg4)) := by
  show shapeCast S8x128x128x256 (rowsOut (M := 131072) (V m c main_v0) (V m c main_v1) (V m c main_arg2) (V m c main_arg3) (V m c main_arg5)
      (V m c main_v3) (V m c main_v4)) shapeCasts_S131072x256_S8x128x128x256 = _
  rw [V_v0, V_v1, V_v3, V_v4, V_main_arg2, V_main_arg3, V_main_arg5]
  exact rows_to_image _ _ _ _ _ _ _ _ _ _ _

/-- The host line after the region un-flattens the region's output array. -/
theorem tail_v6 (c : Dev nD) : Pipeline.afterTail₀ cfgs (dats m) 0 (V0 m) [hostOps1] c main_v6
    = shapeCast S8x128x128x256 (outArr m c) shapeCasts_S131072x256_S8x128x128x256 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = outArr m c := (Pipeline.withArrays_arr spec0 launch0.win.arr_inj c _ _ 7).trans (final_out m c)
  rw [e]
  rfl

/-- THE RUN: every weakly fair execution of the program ends with its result at the image form of the six arguments
    and the arguments as they began. -/
theorem run : θ_run defs (onTc (τ := τ) (main (F := Ideal))) ⟨m, fun _ => 0, ρ⟩ fun r => ∀ c : Dev nD,
      r.2.mem ((c.tc : Thread nD τ).loc main_v6)
        = out4 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg5)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans ((tail_v6 m c).trans (out_value m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c)))⟩)
    (run_main m ρ)

end Cert.KernelIdeal.Body

end
-- ==== Proof.RefValue.lean ====
/-
  The reference computes the image form of the result.

  The reference adds each bias row to its activation, joins the two sums along the channel axis into 512 channels,
  contracts those against the 512 × 256 weight matrix, adds the third bias row and clips below at zero. At pixel
  (a, b, c) and output channel q the contraction is a sum over 512 joined channels; it splits into the first 256,
  where the joined activation is X0 + b0 and the weight row is in the top half, and the last 256, where it is
  X1 + b1 against the bottom half. That is the image form `out4`, entry by entry; the split is `sum_halves`.
-/
import proofs.«146284_j4561255268895_1_alg».proof.Proof.Gen.ReferenceIdeal.Read
import proofs.«146284_j4561255268895_1_alg».proof.Proof.Reshape

noncomputable section

open scoped BigOperators

namespace Cert.ReferenceIdeal.RefValue

open Idealize.ShloMosaic Idealize.ShloMosaic.ValueIdx Cert.ReferenceIdeal Cert.ReferenceIdeal.Gen Cert.ReferenceIdeal.Read
open Cert.BiasedPair

/-- The first bias row repeated over the image reads, at channel κ, its entry κ. -/
theorem bias0_at (x : (⟨S256, .f32⟩ : BufTy).Contents (Elt Ideal)) (a : Fin 8) (b c : Fin 128) (κ : Fin 256) :
    val_main_v1 (F := Ideal) x (ix4 a b c κ) = x (ix1 κ) := by
  rw [val_main_v1_apply, val_main_v0_apply]
  exact congrArg x (funext fun d => match d with | ⟨0, _⟩ => rfl)

/-- The second likewise. -/
theorem bias1_at (x : (⟨S256, .f32⟩ : BufTy).Contents (Elt Ideal)) (a : Fin 8) (b c : Fin 128) (κ : Fin 256) :
    val_main_v4 (F := Ideal) x (ix4 a b c κ) = x (ix1 κ) := by
  rw [val_main_v4_apply, val_main_v3_apply]
  exact congrArg x (funext fun d => match d with | ⟨0, _⟩ => rfl)

/-- And the third. -/
theorem bias2_at (x : (⟨S256, .f32⟩ : BufTy).Contents (Elt Ideal)) (a : Fin 8) (b c : Fin 128) (q : Fin 256) :
    val_main_v10 (F := Ideal) x (ix4 a b c q) = x (ix1 q) := by
  rw [val_main_v10_apply, val_main_v9_apply]
  exact congrArg x (funext fun d => match d with | ⟨0, _⟩ => rfl)

/-- A joined channel in the first half reads the first shifted activation. -/
theorem joined_top (x0 x1 : (⟨S8x128x128x256, .f32⟩ : BufTy).Contents (Elt Ideal)) (x2 x3 : (⟨S256, .f32⟩ : BufTy).Contents (Elt Ideal))
    (a : Fin 8) (b c : Fin 128) (q κ : Fin 256) :
    val_main_v6 (F := Ideal) x0 x1 x2 x3 (lidx_main_v8 (ix4 a b c q) (top κ)) = x0 (ix4 a b c κ) + x2 (ix1 κ) := by
  unfold val_main_v6
  refine (concatenate_pair_apply_left _ _ _ concatenates_S8x128x128x256_S8x128x128x256_S8x128x128x512_d3
    (lidx_main_v8 (ix4 a b c q) (top κ)) rfl (ix4 a b c κ) fun d => ?_).trans ?_
  · match d with
    | ⟨0, _⟩ => rfl
    | ⟨1, _⟩ => rfl
    | ⟨2, _⟩ => rfl
    | ⟨3, _⟩ => rfl
  · rw [val_main_v2_apply, bias0_at]; rfl

/-- A joined channel in the second half reads the second shifted activation, 256 channels back. -/
theorem joined_bot (x0 x1 : (⟨S8x128x128x256, .f32⟩ : BufTy).Contents (Elt Ideal)) (x2 x3 : (⟨S256, .f32⟩ : BufTy).Contents (Elt Ideal))
    (a : Fin 8) (b c : Fin 128) (q κ : Fin 256) :
    val_main_v6 (F := Ideal) x0 x1 x2 x3 (lidx_main_v8 (ix4 a b c q) (bot κ)) = x1 (ix4 a b c κ) + x3 (ix1 κ) := by
  unfold val_main_v6
  refine (concatenate_pair_apply_right _ _ _ concatenates_S8x128x128x256_S8x128x128x256_S8x128x128x512_d3
    (lidx_main_v8 (ix4 a b c q) (bot κ)) rfl rfl (ix4 a b c κ) (fun d => ?_) ?_).trans ?_
  · match d with
    | ⟨0, _⟩ => exact fun _ => rfl
    | ⟨1, _⟩ => exact fun _ => rfl
    | ⟨2, _⟩ => exact fun _ => rfl
    | ⟨3, _⟩ => exact fun h => absurd rfl h
  · show κ.val + 256 = 256 + κ.val
    omega
  · rw [val_main_v5_apply, bias1_at]; rfl

/-- The flattened kernel at the contraction's right index is the kernel at (0, 0, k, q). -/
theorem weight_at (x4 : (⟨S1x1x512x256, .f32⟩ : BufTy).Contents (Elt Ideal)) (a : Fin 8) (b c : Fin 128) (q : Fin 256) (k : Fin 512) :
    val_main_v7 (F := Ideal) x4 (ridx_main_v8 (ix4 a b c q) k) = x4 (ix4 (0 : Fin 1) (0 : Fin 1) k q) := by
  have e : ridx_main_v8 (ix4 a b c q) k = ix2 k q := funext fun d => match d with | ⟨0, _⟩ => rfl | ⟨1, _⟩ => rfl
  rw [e]
  exact wmat_apply x4 shapeCasts_S1x1x512x256_S512x256 k q

/-- The reference's last stage is the image form of the result. -/
theorem ref_eq (x0 x1 : (⟨S8x128x128x256, .f32⟩ : BufTy).Contents (Elt Ideal)) (x2 x3 : (⟨S256, .f32⟩ : BufTy).Contents (Elt Ideal))
    (x4 : (⟨S1x1x512x256, .f32⟩ : BufTy).Contents (Elt Ideal)) (x5 : (⟨S256, .f32⟩ : BufTy).Contents (Elt Ideal)) :
    val_main_v12 (F := Ideal) x0 x1 x2 x3 x4 x5 = out4 x0 x1 x2 x3 x5 x4 := by
  funext i
  obtain ⟨a, b, c, q, rfl⟩ : ∃ (a : Fin 8) (b c : Fin 128) (q : Fin 256), i = ix4 a b c q := ⟨i 0, i 1, i 2, i 3, eq_ix4 i⟩
  rw [out4_apply, val_main_v12_apply, val_main_v11_apply, val_main_v8_apply, bias2_at, val_main_call0_v0_apply,
    val_main_call0_cst_apply, sum_halves]
  unfold entry4
  simp only [joined_top, joined_bot, weight_at, Ideal.ofBits_def, Ideal.ofBits_zero_f32]
  rfl

end Cert.ReferenceIdeal.RefValue

end
-- ==== Proof.lean ====
/-
  Two biased activations through the two halves of a 1 × 1 convolution, added, biased and clipped at zero.

  On an 8 × 128 × 128 image of 256 channels both programs compute, at pixel (a, b, c) and output channel q,

      max ( Σ_κ (x0 (a,b,c,κ) + b0 κ) · w (0,0,κ,q) + Σ_κ (x1 (a,b,c,κ) + b1 κ) · w (0,0,256+κ,q) + cb q , 0 ),   κ < 256.

  The kernel flattens the image to 131072 rows, walks them in 64 blocks of 2048 rows, and at each block forms the two
  256-channel matrix products against the top and the bottom half of the flattened kernel separately (in half
  precision, which on the extended reals is the identity), adds them and the bias, clips, and writes the block back;
  the host un-flattens the rows. The reference joins the two shifted activations into 512 channels and contracts them
  in one sum. The two agree because a sum over 512 indices is the sum over the first 256 plus the sum over the last
  256 — commutativity and associativity of addition only, so the inputs' finiteness is never used.

  The modules: Spec (the function, in rows form and in image form, and the split of the sum), Reshape (rows form to
  image form), Payload (the body's stored value is the rows form on its blocks), Blocks (the blocks tile the output
  array), KernelRun (the kernel program's run ends at the image form), RefValue (so does the reference's last
  stage), LibPlainDot (a plain matrix product read at an entry). The three frames are the generated ones; no
  operation of the kernel is rewritten in its idealization, so the idealized kernel is the kernel's own text read on
  the extended reals and that conjunct is `True`.
-/
import proofs.«146284_j4561255268895_1_alg».proof.Defs
import proofs.«146284_j4561255268895_1_alg».proof.Proof.Gen.Kernel
import proofs.«146284_j4561255268895_1_alg».proof.Proof.Gen.Kernel.Skeleton
import proofs.«146284_j4561255268895_1_alg».proof.Proof.Gen.Kernel.Launch
import proofs.«146284_j4561255268895_1_alg».proof.Proof.Gen.Kernel.Points
import proofs.«146284_j4561255268895_1_alg».proof.Proof.Gen.Kernel.Frame
import proofs.«146284_j4561255268895_1_alg».proof.Proof.Gen.KernelIdeal
import proofs.«146284_j4561255268895_1_alg».proof.Proof.Gen.KernelIdeal.Skeleton
import proofs.«146284_j4561255268895_1_alg».proof.Proof.Gen.KernelIdeal.Launch
import proofs.«146284_j4561255268895_1_alg».proof.Proof.Gen.KernelIdeal.Points
import proofs.«146284_j4561255268895_1_alg».proof.Proof.Gen.KernelIdeal.Frame
import proofs.«146284_j4561255268895_1_alg».proof.Proof.Gen.ReferenceIdeal
import proofs.«146284_j4561255268895_1_alg».proof.Proof.Gen.ReferenceIdeal.Run
import proofs.«146284_j4561255268895_1_alg».proof.Proof.Gen.ReferenceIdeal.Read
import proofs.«146284_j4561255268895_1_alg».proof.Proof.Gen.Pre_finite_inputs
import proofs.«146284_j4561255268895_1_alg».proof.Proof.KernelRun
import proofs.«146284_j4561255268895_1_alg».proof.Proof.RefValue
import Idealize.ShloMosaic.Adequacy
import Idealize.ShloMosaic.Init

noncomputable section

namespace Cert.Proof

open Idealize.ShloMosaic Idealize.ShloMosaic.TcCoe Idealize.SL.Sem

/-- The kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the image form of the result of those
    arguments: the kernel by its run read block by block, the reference by its last stage, where the 512-term
    contraction splits into the two 256-term ones. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v12_eq, Cert.ReferenceIdeal.RefValue.ref_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
